-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S32 .f32) (main_arg6 : FVec F S32x128 .f32) (main_arg7 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S50000x64 : Shape := ⟨2, ![50000, 64]⟩
abbrev S5000x128 : Shape := ⟨2, ![5000, 128]⟩
abbrev S5000x64 : Shape := ⟨2, ![5000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x128 : Shape := ⟨2, ![1, 128]⟩

abbrev nBuf : Space → Nat
  | .hbm => 128
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x128, .f32⟩
  | .hbm, ⟨7, _⟩ => ⟨S128, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x32, .f32⟩
  | .hbm, ⟨68, _⟩ => ⟨S1x800000, .i32⟩
  | .hbm, ⟨69, _⟩ => ⟨S800000, .i32⟩
  | .hbm, ⟨70, _⟩ => ⟨S1x800000, .i32⟩
  | .hbm, ⟨71, _⟩ => ⟨S800000, .i32⟩
  | .hbm, ⟨72, _⟩ => ⟨S50000, .i32⟩
  | .hbm, ⟨73, _⟩ => ⟨S850000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x32, .f32⟩
  | .hbm, ⟨117, _⟩ => ⟨S850000x1, .f32⟩
  | .hbm, ⟨118, _⟩ => ⟨S850000x32, .f32⟩
  | .hbm, ⟨119, _⟩ => ⟨S850000x32, .f32⟩
  | .hbm, ⟨120, _⟩ => ⟨S_, .f32⟩
  | .hbm, ⟨121, _⟩ => ⟨S50000x32, .f32⟩
  | .hbm, ⟨122, _⟩ => ⟨S850000x1, .i32⟩
  | .hbm, ⟨123, _⟩ => ⟨S50000x32, .f32⟩
  | .hbm, ⟨124, _⟩ => ⟨S1x32, .f32⟩
  | .hbm, ⟨125, _⟩ => ⟨S50000x32, .f32⟩
  | .hbm, ⟨126, _⟩ => ⟨S1x128, .f32⟩
  | .hbm, ⟨127, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S128_S1x128 : S128.ShapeCasts S1x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x64_S5000x64_1_0_0_1_n_n_wf : DotDims.WF S5000x128 S128x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x128.size a ≤ S32x128.size a
  hwx4_1 : ∀ i : grid4.Coords, EltTy.bits .f32 = 32 ∨ (Rect.block (s := S32x128) S32x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x32, .f32⟩
  | 5 => ⟨S32, .f32⟩
  | 6 => ⟨S32x128, .f32⟩
  | 7 => ⟨S128, .f32⟩
  | 8 => ⟨S50000x64, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x32, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x32, .f32⟩
  | 121 => ⟨S850000x1, .f32⟩
  | 122 => ⟨S850000x32, .f32⟩
  | 123 => ⟨S850000x32, .f32⟩
  | 124 => ⟨S_, .f32⟩
  | 125 => ⟨S50000x32, .f32⟩
  | 126 => ⟨S850000x1, .i32⟩
  | 127 => ⟨S50000x32, .f32⟩
  | _ => ⟨S50000x128, .f32⟩

abbrev hbmTy0_1 (i : Nat) : BufTy := match i % 128 with
  | 0 => ⟨S1x32, .f32⟩
  | 1 => ⟨S50000x32, .f32⟩
  | 2 => ⟨S50000x32, .f32⟩
  | 3 => ⟨S_, .f32⟩
  | 4 => ⟨S50000x32, .f32⟩
  | 5 => ⟨S50000x32, .f32⟩
  | 6 => ⟨S50000x128, .f32⟩
  | 7 => ⟨S1x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x128_S50000x128_1_0_0_1_n_n_wf : DotDims.WF S50000x32 S32x128 S50000x128 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf

class Facts : Prop extends Facts₀ where

variable [Facts]
-- ==== Proof.Agg.lean ====
/-
  The neighbourhood aggregation of a graph convolution with self-loops and symmetric normalisation, as one function of the
  node features `h` and the edge list `ei` (row 0 the sources, row 1 the destinations).

  * `srcIdx ei`, `dstIdx ei`: the sources, and the destinations, of the given edges followed by one self-loop per node
    (the node numbers 0, 1, …), 850000 entries each.
  * `wrapIdx v`: an entry below zero is moved up by the number of nodes; the others stay.
  * `colIdx v`: the list as a one-column table (the form an indexed read or an indexed sum takes its indices in).
  * `degree ei`: for each node, the number of entries of `dstIdx ei` that land on it, as an indexed sum of ones into zeros.
  * `dinv ei`: the inverse square root of the degree where the degree is positive, zero elsewhere.
  * `edgeNorm ei`: per entry, `dinv` at its wrapped source times `dinv` at its wrapped destination.
  * `agg64 h ei`, `agg32 h ei` (feature widths 64 and 32): the rows of `h` read at the wrapped sources, each scaled by its
    entry's norm, summed into the row of its destination, starting from zeros.

  `h` enters exactly once, through the indexed read of its rows; everything else is a function of the edge list alone.
  Whatever an index outside the node range does in the indexed read and the indexed sum, it does in this one function, which
  both programs apply: nothing here is opened.
-/
import proofs.«145602_j32152125177955_1_alg».proof.Proof.Gen.ReferenceIdeal

noncomputable section

namespace Cert.ReferenceIdeal.Agg

open Cert.ReferenceIdeal Cert.ReferenceIdeal.Gen Idealize.ShloMosaic

variable {F : FTy → Type} [FloatOps F]

/-- The edges' sources, then the node numbers (the self-loops' sources). -/
def srcIdx (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations, then the node numbers (the self-loops' destinations). -/
def dstIdx (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An entry below zero is moved up by the number of nodes. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- A list of indices as a one-column table. -/
def colIdx (v : (⟨S850000, .i32⟩ : BufTy).Contents (Elt F)) : (⟨S850000x1, .i32⟩ : BufTy).Contents (Elt F) :=
  broadcastInDim S850000x1 ![0] bcast_S850000_S850000x1_0 v

/-- Each node's number of incoming entries: ones summed into zeros at the destinations. -/
def degree (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (colIdx (dstIdx ei)) (broadcastInDim S850000 ![] bcast_S_S850000 (constant S_ .f32 0x3F800000#32))

/-- The inverse square root of the degree where it is positive, zero elsewhere. -/
def dinv (ei : (⟨S2x800000, .i32⟩ : BufTy).Contents (Elt F)) : (⟨S50000, .f32⟩ : BufTy).Contents (Elt F) :=
  select (cmpf .ogt (degree ei) (broadcastInDim S50000 ![] bcast_S_S50000 (constant S_ .f32 0x00000000#32))) (Host.rsqrt (degree ei)) (broadcastInDim S50000 ![] bcast_S_S50000 (id (constant S_ .f32 0x00000000#32)))

/-- Per entry: `dinv` at the wrapped source times `dinv` at the wrapped destination. -/
def edgeNorm (ei : (⟨S2x800000, .i32⟩ : BufTy).Contents (Elt F)) : (⟨S850000, .f32⟩ : BufTy).Contents (Elt F) :=
  mulf (Host.gather gather_S50000_S850000x1_S850000_n_0_n_n_0_1_1 (dinv ei) (colIdx (wrapIdx (srcIdx ei)))) (Host.gather gather_S50000_S850000x1_S850000_n_0_n_n_0_1_1 (dinv ei) (colIdx (wrapIdx (dstIdx ei))))

/-- Width 64: rows of `h` at the wrapped sources, scaled by the entry's norm, summed into the destination's row. -/
def agg64 (h : (⟨S50000x64, .f32⟩ : BufTy).Contents (Elt F)) (ei : (⟨S2x800000, .i32⟩ : BufTy).Contents (Elt F)) :
    (⟨S50000x64, .f32⟩ : BufTy).Contents (Elt F) :=
  Host.scatterAdd scatter_S50000x64_S850000x1_S850000x64_1_0_0_1 (broadcastInDim S50000x64 ![] bcast_S_S50000x64 (constant S_ .f32 0x00000000#32)) (colIdx (dstIdx ei)) (mulf (Host.gather gather_S50000x64_S850000x1_S850000x64_1_0_n_n_0_1_164 h (colIdx (wrapIdx (srcIdx ei)))) (broadcastInDim S850000x64 ![0, 1] bcast_S850000x1_S850000x64_0_1 (broadcastInDim S850000x1 ![0] bcast_S850000_S850000x1_0 (edgeNorm ei))))

/-- Width 32: the same. -/
def agg32 (h : (⟨S50000x32, .f32⟩ : BufTy).Contents (Elt F)) (ei : (⟨S2x800000, .i32⟩ : BufTy).Contents (Elt F)) :
    (⟨S50000x32, .f32⟩ : BufTy).Contents (Elt F) :=
  Host.scatterAdd scatter_S50000x32_S850000x1_S850000x32_1_0_0_1 (broadcastInDim S50000x32 ![] bcast_S_S50000x32 (constant S_ .f32 0x00000000#32)) (colIdx (dstIdx ei)) (mulf (Host.gather gather_S50000x32_S850000x1_S850000x32_1_0_n_n_0_1_132 h (colIdx (wrapIdx (srcIdx ei)))) (broadcastInDim S850000x32 ![0, 1] bcast_S850000x1_S850000x32_0_1 (broadcastInDim S850000x1 ![0] bcast_S850000_S850000x1_0 (edgeNorm ei))))

end Cert.ReferenceIdeal.Agg

end
-- ==== Proof.LibDenseLayer.lean ====
/-
  General facts about a dense layer at the ideal values, stated for any extents m, k, n: the array functions a stack of
  "matrix product, add a bias row, clamp at zero" layers is built from, over the extended reals, and how the host's spellings
  of them read.

  * `rowsByCols X W`: the matrix product, entry (a, b) the sum over the contracted coordinate c of X(a, c) · W(c, b).
    However the rows of X are grouped into blocks, each entry is this one sum, so a product computed block of rows by
    block of rows and the product of the whole arrays are the same function; and the host's plain product of two
    matrices is this sum as well.
  * `shiftClamp X B`: add the one-row table B to every row of X, then take the larger of each entry and zero. The host
    writes it as the maximum of X plus B broadcast down the rows, and zero broadcast everywhere.
  * `rowsByColsShift X W B`: the matrix product with the one-row table B added to every row.
  * A vector reshaped to a one-row table and the vector broadcast into a one-row table are the same table.

  No law of arithmetic beyond the definitions is needed: both programs form the same sums and the same maxima of the
  same entries, so nothing here asks the entries to be finite.
-/
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

noncomputable section

open scoped BigOperators

namespace Cert.Gcn

open Idealize.ShloMosaic Idealize.ShloMosaic.ValueIdx

variable {m k n : Nat}

/-- The matrix product: entry (a, b) is Σ_c X(a, c) · W(c, b). -/
def rowsByCols (X : FVec Ideal ⟨2, ![m, k]⟩ .f32) (W : FVec Ideal ⟨2, ![k, n]⟩ .f32) : FVec Ideal ⟨2, ![m, n]⟩ .f32 :=
  fun i => ∑ c : Fin k, X (ix2 (i 0) c) * W (ix2 c (i 1))

theorem rowsByCols_apply (X : FVec Ideal ⟨2, ![m, k]⟩ .f32) (W : FVec Ideal ⟨2, ![k, n]⟩ .f32) (a : Fin m) (b : Fin n) :
    rowsByCols X W (ix2 a b) = ∑ c : Fin k, X (ix2 a c) * W (ix2 c b) := rfl

/-- The host's plain product of two matrices is the matrix product, entry by entry. -/
theorem dotGeneral_plain_eq (prec : Option ContractPrecision) (X : FVec Ideal ⟨2, ![m, k]⟩ .f32)
    (W : FVec Ideal ⟨2, ![k, n]⟩ .f32) : Host.dotGeneral (DotDims.plain m k n) prec X W = rowsByCols X W := by
  funext i
  obtain ⟨a, b, rfl⟩ : ∃ (a : Fin m) (b : Fin n), i = ix2 a b := ⟨i 0, i 1, eq_ix2 i⟩
  exact StackMember.dotGeneral_plain_apply prec X W a b

/-- Add the one-row table `B` to every row, then clamp every entry below at zero. -/
def shiftClamp (X : FVec Ideal ⟨2, ![m, n]⟩ .f32) (B : FVec Ideal ⟨2, ![1, n]⟩ .f32) : FVec Ideal ⟨2, ![m, n]⟩ .f32 :=
  fun i => max (X i + B (ix2 0 (i 1))) (Ideal.ofBits .f32 0x00000000#32)

theorem shiftClamp_apply (X : FVec Ideal ⟨2, ![m, n]⟩ .f32) (B : FVec Ideal ⟨2, ![1, n]⟩ .f32) (a : Fin m) (q : Fin n) :
    shiftClamp X B (ix2 a q) = max (X (ix2 a q) + B (ix2 0 q)) (Ideal.ofBits .f32 0x00000000#32) := rfl

/-- The matrix product with the one-row table `B` added to every row. -/
def rowsByColsShift (X : FVec Ideal ⟨2, ![m, k]⟩ .f32) (W : FVec Ideal ⟨2, ![k, n]⟩ .f32) (B : FVec Ideal ⟨2, ![1, n]⟩ .f32) :
    FVec Ideal ⟨2, ![m, n]⟩ .f32 :=
  fun i => rowsByCols X W i + B (ix2 0 (i 1))

theorem rowsByColsShift_apply (X : FVec Ideal ⟨2, ![m, k]⟩ .f32) (W : FVec Ideal ⟨2, ![k, n]⟩ .f32) (B : FVec Ideal ⟨2, ![1, n]⟩ .f32)
    (a : Fin m) (q : Fin n) :
    rowsByColsShift X W B (ix2 a q) = (∑ c : Fin k, X (ix2 a c) * W (ix2 c q)) + B (ix2 0 q) := rfl

/-- A one-row table broadcast down the rows (the host's form, both axes kept), read at (a, q), is the row at q. -/
theorem rowBroadcastInDim_apply {α : Type} (B : (⟨2, ![1, n]⟩ : Shape).Idx → α)
    (h : (⟨2, ![1, n]⟩ : Shape).BroadcastsInDim ⟨2, ![m, n]⟩ ![0, 1]) (a : Fin m) (q : Fin n) :
    broadcastInDim ⟨2, ![m, n]⟩ ![0, 1] h B (ix2 a q) = B (ix2 0 q) := by
  refine broadcastInDim_apply ![0, 1] h B (ix2 a q) (ix2 0 q) fun ax => ?_
  match ax with
  | ⟨0, _⟩ => rfl
  | ⟨1, _⟩ =>
    show q.val = if n = 1 then 0 else q.val
    split
    · have := q.isLt; omega
    · rfl

/-- The host's clamp of a sum with a broadcast row is `shiftClamp`. -/
theorem host_shiftClamp (A : FVec Ideal ⟨2, ![m, n]⟩ .f32) (B : FVec Ideal ⟨2, ![1, n]⟩ .f32)
    (h2 : (⟨2, ![1, n]⟩ : Shape).BroadcastsInDim ⟨2, ![m, n]⟩ ![0, 1])
    (h0 : (⟨0, ![]⟩ : Shape).BroadcastsInDim ⟨2, ![m, n]⟩ ![]) :
    maximumf (addf A (broadcastInDim ⟨2, ![m, n]⟩ ![0, 1] h2 B))
        (broadcastInDim ⟨2, ![m, n]⟩ ![] h0 (constant (F := Ideal) ⟨0, ![]⟩ .f32 0x00000000#32))
      = shiftClamp A B := by
  funext i
  obtain ⟨a, q, rfl⟩ : ∃ (a : Fin m) (q : Fin n), i = ix2 a q := ⟨i 0, i 1, eq_ix2 i⟩
  show max (A (ix2 a q) + broadcastInDim ⟨2, ![m, n]⟩ ![0, 1] h2 B (ix2 a q))
      (broadcastInDim ⟨2, ![m, n]⟩ ![] h0 (constant (F := Ideal) ⟨0, ![]⟩ .f32 0x00000000#32) (ix2 a q)) = _
  rw [rowBroadcastInDim_apply B h2 a q,
    broadcastInDim_apply ![] h0 (constant (F := Ideal) ⟨0, ![]⟩ .f32 0x00000000#32) (ix2 a q) ix0 (fun ax => ax.elim0)]
  rfl

/-- The host's product plus a broadcast row is `rowsByColsShift`. -/
theorem host_rowsByColsShift (prec : Option ContractPrecision) (X : FVec Ideal ⟨2, ![m, k]⟩ .f32) (W : FVec Ideal ⟨2, ![k, n]⟩ .f32)
    (B : FVec Ideal ⟨2, ![1, n]⟩ .f32) (h2 : (⟨2, ![1, n]⟩ : Shape).BroadcastsInDim ⟨2, ![m, n]⟩ ![0, 1]) :
    addf (Host.dotGeneral (DotDims.plain m k n) prec X W) (broadcastInDim ⟨2, ![m, n]⟩ ![0, 1] h2 B) = rowsByColsShift X W B := by
  funext i
  obtain ⟨a, q, rfl⟩ : ∃ (a : Fin m) (q : Fin n), i = ix2 a q := ⟨i 0, i 1, eq_ix2 i⟩
  show Host.dotGeneral (DotDims.plain m k n) prec X W (ix2 a q) + broadcastInDim ⟨2, ![m, n]⟩ ![0, 1] h2 B (ix2 a q) = _
  rw [rowBroadcastInDim_apply B h2 a q, StackMember.dotGeneral_plain_apply prec X W a q]
  rfl

/-- A vector reshaped to one row and the vector broadcast into one row are the same one-row table. -/
theorem reshape_row_eq_broadcast {α : Type} (b : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, q, rfl⟩ : ∃ (u : Fin 1) (q : Fin n), i = ix2 u q := ⟨i 0, i 1, eq_ix2 i⟩
  rw [shapeCast_a_1a_apply b h u q]
  refine (broadcastInDim_apply ![1] h' b (ix2 u q) (ix1 q) fun ax => ?_).symm
  match ax with
  | ⟨0, _⟩ =>
    show q.val = if n = 1 then 0 else q.val
    split
    · have := q.isLt; omega
    · rfl

end Cert.Gcn

end
-- ==== Proof.RefShape.lean ====
/-
  The reference program's result, read as the composition it is.

  Its composed term is: the third product of (clamp of (second aggregation of the second product of (clamp of (first
  aggregation of the first product, plus the first bias)), plus the second bias)), plus the third bias — with each
  aggregation the one named function of features and edge list. That is how the term is built, so the equation holds by
  unfolding the names (at any float family). At the ideal values the host's plain products are the matrix product, its
  maximum of a sum with a broadcast row and zero is `shiftClamp`, and its product plus a broadcast row is `rowsByColsShift`.
-/
import proofs.«145602_j32152125177955_1_alg».proof.Proof.RefRun
import proofs.«145602_j32152125177955_1_alg».proof.Proof.Agg
import proofs.«145602_j32152125177955_1_alg».proof.Proof.LibDenseLayer

set_option maxRecDepth 16384

noncomputable section

namespace Cert.ReferenceIdeal.RefValue

open Cert.ReferenceIdeal Cert.ReferenceIdeal.Gen Cert.ReferenceIdeal.ValueP Cert.ReferenceIdeal.Agg Cert.Gcn
open Idealize.ShloMosaic Idealize.ShloMosaic.TcCoe Idealize.SL.Sem

/-- The three products' dimension records are the plain rows-by-columns contraction. -/
theorem dot1_plain : dot_S50000x128_S128x64_S50000x64_1_0_0_1_n_n = DotDims.plain 50000 128 64 := rfl
theorem dot2_plain : dot_S50000x64_S64x32_S50000x32_1_0_0_1_n_n = DotDims.plain 50000 64 32 := rfl
theorem dot3_plain : dot_S50000x32_S32x128_S50000x128_1_0_0_1_n_n = DotDims.plain 50000 32 128 := rfl

set_option maxHeartbeats 4000000 in
/-- The composed term is the composition of products, aggregations, biases and clamps, as the host spells them. -/
theorem res_shape {F : FTy → Type} [FloatOps F] (m : (ℓ : Loc nD τ sig) → Buf (Elt F) ℓ) (c : Dev nD) :
    res_main_v99 m c
      = addf (Host.dotGeneral dot_S50000x32_S32x128_S50000x128_1_0_0_1_n_n none (maximumf (addf (agg32 (Host.dotGeneral dot_S50000x64_S64x32_S50000x32_1_0_0_1_n_n none (maximumf (addf (agg64 (Host.dotGeneral dot_S50000x128_S128x64_S50000x64_1_0_0_1_n_n none (m ((c.tc : Thread nD τ).loc main_arg0)) (m ((c.tc : Thread nD τ).loc main_arg2))) (m ((c.tc : Thread nD τ).loc main_arg1))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant S_ .f32 0x00000000#32))) (m ((c.tc : Thread nD τ).loc main_arg4))) (m ((c.tc : Thread nD τ).loc main_arg1))) (broadcastInDim S50000x32 ![0, 1] bcast_S1x32_S50000x32_0_1 (broadcastInDim S1x32 ![1] bcast_S32_S1x32_1 (m ((c.tc : Thread nD τ).loc main_arg5))))) (broadcastInDim S50000x32 ![] bcast_S_S50000x32 (constant S_ .f32 0x00000000#32))) (m ((c.tc : Thread nD τ).loc main_arg6))) (broadcastInDim S50000x128 ![0, 1] bcast_S1x128_S50000x128_0_1 (broadcastInDim S1x128 ![1] bcast_S128_S1x128_1 (m ((c.tc : Thread nD τ).loc main_arg7)))) := by
  unfold res_main_v99 agg32 agg64 edgeNorm dinv degree colIdx wrapIdx srcIdx dstIdx
  rfl

/-- At the ideal values: the same composition in the array functions of the specification. -/
theorem res_eq (m : (ℓ : Loc nD τ sig) → Buf (Elt Ideal) ℓ) (c : Dev nD) :
    res_main_v99 (F := Ideal) m c
      = rowsByColsShift (shiftClamp (agg32 (rowsByCols (shiftClamp (agg64 (rowsByCols (m ((c.tc : Thread nD τ).loc main_arg0)) (m ((c.tc : Thread nD τ).loc main_arg2))) (m ((c.tc : Thread nD τ).loc main_arg1))) (broadcastInDim S1x64 ![1] bcast_S64_S1x64_1 (m ((c.tc : Thread nD τ).loc main_arg3)))) (m ((c.tc : Thread nD τ).loc main_arg4))) (m ((c.tc : Thread nD τ).loc main_arg1))) (broadcastInDim S1x32 ![1] bcast_S32_S1x32_1 (m ((c.tc : Thread nD τ).loc main_arg5)))) (m ((c.tc : Thread nD τ).loc main_arg6)) (broadcastInDim S1x128 ![1] bcast_S128_S1x128_1 (m ((c.tc : Thread nD τ).loc main_arg7))) := by
  rw [res_shape, dot1_plain, dot2_plain, dot3_plain]
  rw [host_rowsByColsShift, host_shiftClamp, host_shiftClamp, dotGeneral_plain_eq, dotGeneral_plain_eq]

end Cert.ReferenceIdeal.RefValue

end
-- ==== Proof.HostRead.lean ====
/-
  What the kernel program's host operations between its regions leave in the buffers the next regions read, from ANY
  contents `W` of the buffers before them.

  Between regions 0 and 1 (57 operations in three lists): the buffer region 1 takes as its first input holds the width-64
  neighbourhood aggregation of the buffer region 0 wrote and of the edge list; the buffer it takes as its second input holds
  the first bias as one row; the argument arrays that later regions and later host operations read are not written.
  Between regions 2 and 3 (57 operations): the same at width 32, from the buffer region 2 wrote, with the second bias.
  Between regions 3 and 4 (one operation): the third bias as one row; region 3's output and the last weights are not written.

  The aggregation is the one function of features and edge list that the reference program applies too; it is named, never
  opened.
-/
import proofs.«145602_j32152125177955_1_alg».proof.Proof.Gen.KernelIdeal.Launch
import proofs.«145602_j32152125177955_1_alg».proof.Proof.Agg
import Idealize.ShloMosaic.Lib.StableHlo.Run

set_option maxRecDepth 16384

noncomputable section

namespace Cert.KernelIdeal.HostRead

open Cert.KernelIdeal Cert.KernelIdeal.Gen Idealize.ShloMosaic Idealize.ShloMosaic.StableHlo Idealize.ShloMosaic.TcCoe
open Cert.ReferenceIdeal.Agg

variable {F : FTy → Type} [FloatOps F]
variable (W : Valuation τ sig (Elt F))

/-- The buffers after the host operations between regions 0 and 1. -/
abbrev after1 : Valuation τ sig (Elt F) :=
  StableHlo.after hostOps1_2 (StableHlo.after hostOps1_1 (StableHlo.after hostOps1 W))

/-- The buffers after the host operations between regions 2 and 3. -/
abbrev after3 : Valuation τ sig (Elt F) :=
  StableHlo.after hostOps3_2 (StableHlo.after hostOps3_1 (StableHlo.after hostOps3 W))

/-- The buffers after the host operation between regions 3 and 4. -/
abbrev after4 : Valuation τ sig (Elt F) := StableHlo.after hostOps4 W

set_option maxHeartbeats 4000000 in
/-- Region 1's first input: the width-64 aggregation of region 0's output and the edge list. -/
theorem after1_agg : after1 W (Proc.devRef .tc main_v43) = agg64 (W (Proc.devRef .tc main_v0)) (W (Proc.devRef .tc main_arg1)) := by
  dsimp only [after1, hostOps1, hostOps1_1, hostOps1_2]
  after_results_simp
  rfl

/-- Region 1's second input: the first bias as one row. -/
theorem after1_bias : after1 W (Proc.devRef .tc main_v44) = shapeCast S1x64 (W (Proc.devRef .tc main_arg3)) shapeCasts_S64_S1x64 := by
  dsimp only [after1, hostOps1, hostOps1_1, hostOps1_2]
  after_results_simp
  rfl

theorem after1_arg1 : after1 W (Proc.devRef .tc main_arg1) = W (Proc.devRef .tc main_arg1) := by
  dsimp only [after1, hostOps1, hostOps1_1, hostOps1_2]; after_results_simp
theorem after1_arg4 : after1 W (Proc.devRef .tc main_arg4) = W (Proc.devRef .tc main_arg4) := by
  dsimp only [after1, hostOps1, hostOps1_1, hostOps1_2]; after_results_simp
theorem after1_arg5 : after1 W (Proc.devRef .tc main_arg5) = W (Proc.devRef .tc main_arg5) := by
  dsimp only [after1, hostOps1, hostOps1_1, hostOps1_2]; after_results_simp
theorem after1_arg6 : after1 W (Proc.devRef .tc main_arg6) = W (Proc.devRef .tc main_arg6) := by
  dsimp only [after1, hostOps1, hostOps1_1, hostOps1_2]; after_results_simp
theorem after1_arg7 : after1 W (Proc.devRef .tc main_arg7) = W (Proc.devRef .tc main_arg7) := by
  dsimp only [after1, hostOps1, hostOps1_1, hostOps1_2]; after_results_simp

set_option maxHeartbeats 4000000 in
/-- Region 3's first input: the width-32 aggregation of region 2's output and the edge list. -/
theorem after3_agg : after3 W (Proc.devRef .tc main_v89) = agg32 (W (Proc.devRef .tc main_v46)) (W (Proc.devRef .tc main_arg1)) := by
  dsimp only [after3, hostOps3, hostOps3_1, hostOps3_2]
  after_results_simp
  rfl

/-- Region 3's second input: the second bias as one row. -/
theorem after3_bias : after3 W (Proc.devRef .tc main_v90) = shapeCast S1x32 (W (Proc.devRef .tc main_arg5)) shapeCasts_S32_S1x32 := by
  dsimp only [after3, hostOps3, hostOps3_1, hostOps3_2]
  after_results_simp
  rfl

theorem after3_arg6 : after3 W (Proc.devRef .tc main_arg6) = W (Proc.devRef .tc main_arg6) := by
  dsimp only [after3, hostOps3, hostOps3_1, hostOps3_2]; after_results_simp
theorem after3_arg7 : after3 W (Proc.devRef .tc main_arg7) = W (Proc.devRef .tc main_arg7) := by
  dsimp only [after3, hostOps3, hostOps3_1, hostOps3_2]; after_results_simp

/-- Region 4's third input: the third bias as one row. -/
theorem after4_bias : after4 W (Proc.devRef .tc main_v92) = shapeCast S1x128 (W (Proc.devRef .tc main_arg7)) shapeCasts_S128_S1x128 := by
  dsimp only [after4, hostOps4]
  after_results_simp
  rfl

theorem after4_v91 : after4 W (Proc.devRef .tc main_v91) = W (Proc.devRef .tc main_v91) := by
  dsimp only [after4, hostOps4]; after_results_simp
theorem after4_arg6 : after4 W (Proc.devRef .tc main_arg6) = W (Proc.devRef .tc main_arg6) := by
  dsimp only [after4, hostOps4]; after_results_simp

end Cert.KernelIdeal.HostRead

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Payloads.lean ====
/-
  What each region's body stores, read at one entry (p, q) of its block, at the ideal values.

  * Regions 0 and 2 store the product of a block of 5000 rows by the whole weight matrix into a zero accumulator: entry (p, q) is
    the sum over the contracted coordinate c of row p's entry c times the weight at (c, q). The change of float format on the
    way into the product is the identity on extended reals.
  * Regions 1 and 3 store, at (p, q), the larger of zero and the block's entry plus the one-row table's entry at column q.
  * Region 4 stores the product's entry plus the one-row table's entry at column q.
-/
import proofs.«145602_j32152125177955_1_alg».proof.Proof.Gen.KernelIdeal.Skeleton
import proofs.«145602_j32152125177955_1_alg».proof.Proof.LibMatmulPlain
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.LibMatmulPlain

/-- The three products' dimension records are the plain rows-by-columns contraction. -/
theorem dot0_plain : dot_S5000x128_S128x64_S5000x64_1_0_0_1_n_n = DotDims.plain 5000 128 64 := rfl
theorem dot2_plain : dot_S5000x64_S64x32_S5000x32_1_0_0_1_n_n = DotDims.plain 5000 64 32 := rfl
theorem dot4_plain : dot_S5000x32_S32x128_S5000x128_1_0_0_1_n_n = DotDims.plain 5000 32 128 := rfl

/-- Region 0: rows of the block against the columns of the 128×64 weights. -/
theorem pay0_apply (x0 : FVec Ideal S5000x128 .f32) (x1 : FVec Ideal S128x64 .f32) (p : Fin 5000) (q : Fin 64) :
    k0_pay1 x0 x1 (ix2 p q) = ∑ c : Fin 128, x0 (ix2 p c) * x1 (ix2 c q) :=
  matmul_plain_zero_apply none (truncf .bf16 x0 bitsLt_bf16_f32) (truncf .bf16 x1 bitsLt_bf16_f32) p q

/-- Region 2: rows of the block against the columns of the 64×32 weights (the block first cast to its own shape). -/
theorem pay2_apply (x0 : FVec Ideal S5000x64 .f32) (x1 : FVec Ideal S64x32 .f32) (p : Fin 5000) (q : Fin 32) :
    k2_pay1 x0 x1 (ix2 p q) = ∑ c : Fin 64, x0 (ix2 p c) * x1 (ix2 c q) := by
  show FloatOps.matmul (F := Ideal) dot_S5000x64_S64x32_S5000x32_1_0_0_1_n_n none
      (truncf .bf16 (shapeCast S5000x64 x0 shapeCasts_S5000x64_S5000x64) bitsLt_bf16_f32) (truncf .bf16 x1 bitsLt_bf16_f32)
      (constant S5000x32 .f32 0x00000000#32) (ix2 p q) = _
  rw [shapeCast_self]
  exact matmul_plain_zero_apply none (truncf .bf16 x0 bitsLt_bf16_f32) (truncf .bf16 x1 bitsLt_bf16_f32) p q

/-- Region 1: the block's entry plus the row table's entry at its column, clamped below at zero. -/
theorem pay1_apply (x0 : FVec Ideal S5000x64 .f32) (x1 : FVec Ideal S1x64 .f32) (p : Fin 5000) (q : Fin 64) :
    k1_pay1 x0 x1 (ix2 p q) = max (x0 (ix2 p q) + x1 (ix2 0 q)) (Ideal.ofBits .f32 0x00000000#32) := by
  show max ((shapeCast S5000x64 x0 shapeCasts_S5000x64_S5000x64) (ix2 p q)
      + (broadcastTo S5000x64 (shapeCast S1x64 x1 shapeCasts_S1x64_S1x64) broadcasts_S1x64_S5000x64) (ix2 p q))
      (Ideal.ofBits .f32 0x00000000#32) = _
  rw [shapeCast_self, shapeCast_self, rowBroadcast_apply]

/-- Region 3: the same at width 32. -/
theorem pay3_apply (x0 : FVec Ideal S5000x32 .f32) (x1 : FVec Ideal S1x32 .f32) (p : Fin 5000) (q : Fin 32) :
    k3_pay1 x0 x1 (ix2 p q) = max (x0 (ix2 p q) + x1 (ix2 0 q)) (Ideal.ofBits .f32 0x00000000#32) := by
  show max ((shapeCast S5000x32 x0 shapeCasts_S5000x32_S5000x32) (ix2 p q)
      + (broadcastTo S5000x32 (shapeCast S1x32 x1 shapeCasts_S1x32_S1x32) broadcasts_S1x32_S5000x32) (ix2 p q))
      (Ideal.ofBits .f32 0x00000000#32) = _
  rw [shapeCast_self, shapeCast_self, rowBroadcast_apply]

/-- Region 4: rows of the block against the columns of the 32×128 weights, plus the row table's entry at the column. -/
theorem pay4_apply (x0 : FVec Ideal S5000x32 .f32) (x1 : FVec Ideal S32x128 .f32) (x2 : FVec Ideal S1x128 .f32) (p : Fin 5000) (q : Fin 128) :
    k4_pay1 x0 x1 x2 (ix2 p q) = (∑ c : Fin 32, x0 (ix2 p c) * x1 (ix2 c q)) + x2 (ix2 0 q) := by
  show FloatOps.matmul (F := Ideal) dot_S5000x32_S32x128_S5000x128_1_0_0_1_n_n none
      (truncf .bf16 (shapeCast S5000x32 x0 shapeCasts_S5000x32_S5000x32) bitsLt_bf16_f32) (truncf .bf16 x1 bitsLt_bf16_f32)
      (constant S5000x128 .f32 0x00000000#32) (ix2 p q)
      + (broadcastTo S5000x128 (shapeCast S1x128 x2 shapeCasts_S1x128_S1x128) broadcasts_S1x128_S5000x128) (ix2 p q) = _
  rw [shapeCast_self, shapeCast_self, rowBroadcast_apply]
  exact congrArg (· + x2 (ix2 0 q)) (matmul_plain_zero_apply none (truncf .bf16 x0 bitsLt_bf16_f32) (truncf .bf16 x1 bitsLt_bf16_f32) p q)

end Cert.KernelIdeal.Payload

end
-- ==== Proof.Region0.lean ====
/-
  Region 0 (node features times the first layer's weights), read as one array.

  The grid has 10 points. Point t takes rows 5000·t … 5000·t + 4999 of the 50000×128 input, the whole 128×64 weight matrix, and
  writes rows 5000·t … 5000·t + 4999 of the 50000×64 output. Entry (p, q) of the block it writes is the sum over c of the input
  block's (p, c) times the weights' (c, q); the input block's row p is the array's row 5000·t + p, which is also the row of the
  output entry. So every point writes its block of ONE array function, the matrix product of the whole arrays, and the ten
  blocks cover every row (row r lies in block r / 5000): the output array ends holding the product.
-/
import proofs.«145602_j32152125177955_1_alg».proof.Proof.Gen.KernelIdeal.Frame
import proofs.«145602_j32152125177955_1_alg».proof.Proof.Payloads
import proofs.«145602_j32152125177955_1_alg».proof.Proof.LibDenseLayer
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.ValueIdx Idealize.ShloMosaic.TcCoe Cert.Gcn
open Idealize.ShloMosaic.Pipeline (Dat)

variable (V : (c : Dev nD) → (b : Ref sig .tc) → Buf (Elt Ideal) ((c : Thread nD τ).loc b))

/-- The input array and the weights as the region finds them, at their literal types. -/
abbrev xs (c : Dev nD) : FVec Ideal S50000x128 .f32 := V c main_arg0
abbrev ws (c : Dev nD) : FVec Ideal S128x64 .f32 := V c main_arg2

theorem zeroOffsets : (![0, 0] : Fin 2 → Nat) = fun _ => 0 := funext fun a => by fin_cases a <;> rfl

/-- The index maps over the grid: the input's row block is the output's, the weights stay at block (0, 0), and the output's row
    block at point t is t. -/
theorem blockIdx : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t
      = ((cfg0.win 2).blk t).view.read (Elt Ideal) (rowsByCols (xs V c) (ws V c)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  obtain ⟨e0, e1, e2, e3, e4, e5⟩ := blockIdx t
  funext j
  obtain ⟨p, q, rfl⟩ : ∃ (p : Fin 5000) (q : Fin 64), j = ix2 p q := ⟨j 0, j 1, eq_ix2 j⟩
  refine (Payload.pay0_apply (iblk0 V c 0 t) (iblk0 V c 1 t) p q).trans ?_
  show ∑ k : Fin 128, xs V c (((cfg0.win 0).blk t).view.emb (ix2 p k)) * ws V c (((cfg0.win 1).blk t).view.emb (ix2 k q))
      = ∑ k : Fin 128, xs V c (ix2 ((((cfg0.win 2).blk t).view.emb (ix2 p q)) 0) k)
          * ws V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]
  rfl

/-- An entry of the output array is in point t's block iff each coordinate is in the block's range on its axis. -/
theorem mem_blk (t : Fin cfg0.N) (i : S50000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry lies in some point's block: row r in block r / 5000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  obtain ⟨e0, e1, e2, e3, e4, e5⟩ := blockIdx ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    omega

/-- The output array after the region: the product of the input array by the weights, as the region finds them. -/
theorem arr (c : Dev nD) : (dat0 V c).arrAt 2 cfg0.N = rowsByCols (xs V c) (ws V c) :=
  (dat0 V c).arrAt_eq_of_cover 2 _ (fun t _ => flushed_eq V c t) (covered)

end Cert.KernelIdeal.Region0

end
-- ==== Proof.Region1.lean ====
/-
  Region 1 (first bias and clamp), read as one array.

  The grid has 10 points. Point t takes rows 5000·t … 5000·t + 4999 of the 50000×64 input and the whole one-row table, and
  writes the same rows of the 50000×64 output. Entry (p, q) of the block it writes is the larger of zero and the input block's
  (p, q) plus the table's entry at column q; the block's (p, q) is the array's entry at row 5000·t + p, column q, the very place
  the output entry goes. So every point writes its block of ONE array function, `shiftClamp` of the whole input and the table,
  and the ten blocks cover every row: the output array ends holding it.
-/
import proofs.«145602_j32152125177955_1_alg».proof.Proof.Gen.KernelIdeal.Frame
import proofs.«145602_j32152125177955_1_alg».proof.Proof.Payloads
import proofs.«145602_j32152125177955_1_alg».proof.Proof.LibDenseLayer
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.ValueIdx Idealize.ShloMosaic.TcCoe Cert.Gcn
open Idealize.ShloMosaic.Pipeline (Dat)

variable (V : (c : Dev nD) → (b : Ref sig .tc) → Buf (Elt Ideal) ((c : Thread nD τ).loc b))

/-- The input array and the one-row table as the region finds them, at their literal types. -/
abbrev xs (c : Dev nD) : FVec Ideal S50000x64 .f32 := V c main_v43
abbrev bs (c : Dev nD) : FVec Ideal S1x64 .f32 := V c main_v44

theorem zeroOffsets : (![0, 0] : Fin 2 → Nat) = fun _ => 0 := funext fun a => by fin_cases a <;> rfl

/-- The index maps over the grid: the input's row block is the output's, both at column block 0; the table stays at block
    (0, 0); the output's row block at point t is t. -/
theorem blockIdx : ∀ t : Fin cfg1.N,
      win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of `shiftClamp` of the arrays as the region finds them. -/
theorem flushed_eq (c : Dev nD) (t : Fin cfg1.N) :
    (dat1 V c).flushed 2 t
      = ((cfg1.win 2).blk t).view.read (Elt Ideal) (shiftClamp (xs V c) (bs V c)) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S1x64) zeroOffsets]
  obtain ⟨e0, e1, e2, e3, e4, e5⟩ := blockIdx t
  funext j
  obtain ⟨p, q, rfl⟩ : ∃ (p : Fin 5000) (q : Fin 64), j = ix2 p q := ⟨j 0, j 1, eq_ix2 j⟩
  refine (Payload.pay1_apply (iblk1 V c 0 t) (iblk1 V c 1 t) p q).trans ?_
  show max (xs V c (((cfg1.win 0).blk t).view.emb (ix2 p q)) + bs V c (((cfg1.win 1).blk t).view.emb (ix2 0 q)))
        (Ideal.ofBits .f32 0x00000000#32)
      = max (xs V c (((cfg1.win 2).blk t).view.emb (ix2 p q))
          + bs V c (ix2 0 ((((cfg1.win 2).blk t).view.emb (ix2 p q)) 1))) (Ideal.ofBits .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]
  rfl

/-- An entry of the output array is in point t's block iff each coordinate is in the block's range on its axis. -/
theorem mem_blk (t : Fin cfg1.N) (i : S50000x64.Idx) :
    i ∈ ((cfg1.win 2).blk t).view.set
      ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every entry lies in some point's block: row r in block r / 5000. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  have ht : (i 0).val / 5000 < cfg1.N := by show (i 0).val / 5000 < grid1.N; omega
  obtain ⟨e0, e1, e2, e3, e4, e5⟩ := blockIdx ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- The output array after the region: the input plus the table on every row, clamped below at zero. -/
theorem arr (c : Dev nD) : (dat1 V c).arrAt 2 cfg1.N = shiftClamp (xs V c) (bs V c) :=
  (dat1 V c).arrAt_eq_of_cover 2 _ (fun t _ => flushed_eq V c t) (covered)

end Cert.KernelIdeal.Region1

end
-- ==== Proof.Region2.lean ====
/-
  Region 2 (first layer's output times the second layer's weights), read as one array.

  The grid has 10 points. Point t takes rows 5000·t … 5000·t + 4999 of the 50000×64 input, the whole 64×32 weight matrix, and
  writes rows 5000·t … 5000·t + 4999 of the 50000×32 output. Entry (p, q) of the block it writes is the sum over c of the input
  block's (p, c) times the weights' (c, q); the input block's row p is the array's row 5000·t + p, the row of the output entry.
  So every point writes its block of the matrix product of the whole arrays, and the ten blocks cover every row: the output
  array ends holding the product.
-/
import proofs.«145602_j32152125177955_1_alg».proof.Proof.Gen.KernelIdeal.Frame
import proofs.«145602_j32152125177955_1_alg».proof.Proof.Payloads
import proofs.«145602_j32152125177955_1_alg».proof.Proof.LibDenseLayer
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.ValueIdx Idealize.ShloMosaic.TcCoe Cert.Gcn
open Idealize.ShloMosaic.Pipeline (Dat)

variable (V : (c : Dev nD) → (b : Ref sig .tc) → Buf (Elt Ideal) ((c : Thread nD τ).loc b))

/-- The input array and the weights as the region finds them, at their literal types. -/
abbrev xs (c : Dev nD) : FVec Ideal S50000x64 .f32 := V c main_v45
abbrev ws (c : Dev nD) : FVec Ideal S64x32 .f32 := V c main_arg4

theorem zeroOffsets : (![0, 0] : Fin 2 → Nat) = fun _ => 0 := funext fun a => by fin_cases a <;> rfl

/-- The index maps over the grid: the input's row block is the output's, the weights stay at block (0, 0), and the output's row
    block at point t is t. -/
theorem blockIdx : ∀ t : Fin cfg2.N,
      win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the arrays as the region finds them. -/
theorem flushed_eq (c : Dev nD) (t : Fin cfg2.N) :
    (dat2 V c).flushed 2 t
      = ((cfg2.win 2).blk t).view.read (Elt Ideal) (rowsByCols (xs V c) (ws V c)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x32) zeroOffsets]
  obtain ⟨e0, e1, e2, e3, e4, e5⟩ := blockIdx t
  funext j
  obtain ⟨p, q, rfl⟩ : ∃ (p : Fin 5000) (q : Fin 32), j = ix2 p q := ⟨j 0, j 1, eq_ix2 j⟩
  refine (Payload.pay2_apply (iblk2 V c 0 t) (iblk2 V c 1 t) p q).trans ?_
  show ∑ k : Fin 64, xs V c (((cfg2.win 0).blk t).view.emb (ix2 p k)) * ws V c (((cfg2.win 1).blk t).view.emb (ix2 k q))
      = ∑ k : Fin 64, xs V c (ix2 ((((cfg2.win 2).blk t).view.emb (ix2 p q)) 0) k)
          * ws V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  rw [h0, h1]
  rfl

/-- An entry of the output array is in point t's block iff each coordinate is in the block's range on its axis. -/
theorem mem_blk (t : Fin cfg2.N) (i : S50000x32.Idx) :
    i ∈ ((cfg2.win 2).blk t).view.set
      ↔ ∀ a : Fin 2, win2_2.index t a * S5000x32.size a ≤ (i a).val ∧ (i a).val < win2_2.index t a * S5000x32.size a + S5000x32.size a := by
  show i ∈ ((View.whole main_v46).slice (win2_2.rect t)).set ↔ _
  rw [View.set_slice_whole, Rect.mem_set_unit]
  exact Iff.rfl

/-- Every entry lies in some point's block: row r in block r / 5000. -/
theorem covered (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : grid2.N = 10 := N_2
  have ht : (i 0).val / 5000 < cfg2.N := by show (i 0).val / 5000 < grid2.N; omega
  obtain ⟨e0, e1, e2, e3, e4, e5⟩ := blockIdx ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 32 ≤ (i 1).val
      ∧ (i 1).val < win2_2.index ⟨(i 0).val / 5000, ht⟩ (1 : Fin 2) * 32 + 32
    omega

/-- The output array after the region: the product of the input array by the weights, as the region finds them. -/
theorem arr (c : Dev nD) : (dat2 V c).arrAt 2 cfg2.N = rowsByCols (xs V c) (ws V c) :=
  (dat2 V c).arrAt_eq_of_cover 2 _ (fun t _ => flushed_eq V c t) (covered)

end Cert.KernelIdeal.Region2

end
-- ==== Proof.Region3.lean ====
/-
  Region 3 (second bias and clamp), read as one array.

  The grid has 10 points. Point t takes rows 5000·t … 5000·t + 4999 of the 50000×32 input and the whole one-row table, and
  writes the same rows of the 50000×32 output. Entry (p, q) of the block it writes is the larger of zero and the input block's
  (p, q) plus the table's entry at column q; the block's (p, q) is the array's entry at row 5000·t + p, column q, the very place
  the output entry goes. So every point writes its block of `shiftClamp` of the whole input and the table, and the ten blocks
  cover every row: the output array ends holding it.
-/
import proofs.«145602_j32152125177955_1_alg».proof.Proof.Gen.KernelIdeal.Frame
import proofs.«145602_j32152125177955_1_alg».proof.Proof.Payloads
import proofs.«145602_j32152125177955_1_alg».proof.Proof.LibDenseLayer
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.ValueIdx Idealize.ShloMosaic.TcCoe Cert.Gcn
open Idealize.ShloMosaic.Pipeline (Dat)

variable (V : (c : Dev nD) → (b : Ref sig .tc) → Buf (Elt Ideal) ((c : Thread nD τ).loc b))

/-- The input array and the one-row table as the region finds them, at their literal types. -/
abbrev xs (c : Dev nD) : FVec Ideal S50000x32 .f32 := V c main_v89
abbrev bs (c : Dev nD) : FVec Ideal S1x32 .f32 := V c main_v90

theorem zeroOffsets : (![0, 0] : Fin 2 → Nat) = fun _ => 0 := funext fun a => by fin_cases a <;> rfl

/-- The index maps over the grid: the input's row block is the output's, both at column block 0; the table stays at block
    (0, 0); the output's row block at point t is t. -/
theorem blockIdx : ∀ t : Fin cfg3.N,
      win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of `shiftClamp` of the arrays as the region finds them. -/
theorem flushed_eq (c : Dev nD) (t : Fin cfg3.N) :
    (dat3 V c).flushed 2 t
      = ((cfg3.win 2).blk t).view.read (Elt Ideal) (shiftClamp (xs V c) (bs V c)) := by
  show (cfg3.win 2).cut (grid3.coords t) ((dat3 V c).after 2 t) = _
  rw [after3_2]
  unfold out3_2
  rw [View.canon_unit_zero zeroOffsets]
  simp only [View.ld_unit_zero (S := S5000x32) zeroOffsets, View.ld_unit_zero (S := S1x32) zeroOffsets]
  obtain ⟨e0, e1, e2, e3, e4, e5⟩ := blockIdx t
  funext j
  obtain ⟨p, q, rfl⟩ : ∃ (p : Fin 5000) (q : Fin 32), j = ix2 p q := ⟨j 0, j 1, eq_ix2 j⟩
  refine (Payload.pay3_apply (iblk3 V c 0 t) (iblk3 V c 1 t) p q).trans ?_
  show max (xs V c (((cfg3.win 0).blk t).view.emb (ix2 p q)) + bs V c (((cfg3.win 1).blk t).view.emb (ix2 0 q)))
        (Ideal.ofBits .f32 0x00000000#32)
      = max (xs V c (((cfg3.win 2).blk t).view.emb (ix2 p q))
          + bs V c (ix2 0 ((((cfg3.win 2).blk t).view.emb (ix2 p q)) 1))) (Ideal.ofBits .f32 0x00000000#32)
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 32 + 1 * q.val = win3_2.index t (1 : Fin 2) * 32 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, h1]
  rfl

/-- An entry of the output array is in point t's block iff each coordinate is in the block's range on its axis. -/
theorem mem_blk (t : Fin cfg3.N) (i : S50000x32.Idx) :
    i ∈ ((cfg3.win 2).blk t).view.set
      ↔ ∀ a : Fin 2, win3_2.index t a * S5000x32.size a ≤ (i a).val ∧ (i a).val < win3_2.index t a * S5000x32.size a + S5000x32.size a := by
  show i ∈ ((View.whole main_v91).slice (win3_2.rect t)).set ↔ _
  rw [View.set_slice_whole, Rect.mem_set_unit]
  exact Iff.rfl

/-- Every entry lies in some point's block: row r in block r / 5000. -/
theorem covered (i : S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  have hN : grid3.N = 10 := N_3
  have ht : (i 0).val / 5000 < cfg3.N := by show (i 0).val / 5000 < grid3.N; omega
  obtain ⟨e0, e1, e2, e3, e4, e5⟩ := blockIdx ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 32 ≤ (i 1).val
      ∧ (i 1).val < win3_2.index ⟨(i 0).val / 5000, ht⟩ (1 : Fin 2) * 32 + 32
    omega

/-- The output array after the region: the input plus the table on every row, clamped below at zero. -/
theorem arr (c : Dev nD) : (dat3 V c).arrAt 2 cfg3.N = shiftClamp (xs V c) (bs V c) :=
  (dat3 V c).arrAt_eq_of_cover 2 _ (fun t _ => flushed_eq V c t) (covered)

end Cert.KernelIdeal.Region3

end
-- ==== Proof.Region4.lean ====
/-
  Region 4 (read-out: second layer's output times the last weights, plus the third bias), read as one array.

  The grid has 10 points. Point t takes rows 5000·t … 5000·t + 4999 of the 50000×32 input, the whole 32×128 weight matrix and
  the whole one-row table, and writes rows 5000·t … 5000·t + 4999 of the 50000×128 output. Entry (p, q) of the block it writes
  is the sum over c of the input block's (p, c) times the weights' (c, q), plus the table's entry at column q; the input block's
  row p is the array's row 5000·t + p, the row of the output entry. So every point writes its block of `rowsByColsShift` of the
  whole arrays, and the ten blocks cover every row: the output array ends holding it.
-/
import proofs.«145602_j32152125177955_1_alg».proof.Proof.Gen.KernelIdeal.Frame
import proofs.«145602_j32152125177955_1_alg».proof.Proof.Payloads
import proofs.«145602_j32152125177955_1_alg».proof.Proof.LibDenseLayer
import Idealize.ShloMosaic.Lib.Pipeline.Value

set_option maxRecDepth 16384

noncomputable section

open scoped BigOperators

namespace Cert.KernelIdeal.Region4

open Cert.KernelIdeal Cert.KernelIdeal.Gen Idealize.ShloMosaic Idealize.ShloMosaic.ValueIdx Idealize.ShloMosaic.TcCoe Cert.Gcn
open Idealize.ShloMosaic.Pipeline (Dat)

variable (V : (c : Dev nD) → (b : Ref sig .tc) → Buf (Elt Ideal) ((c : Thread nD τ).loc b))

/-- The input array, the weights and the one-row table as the region finds them, at their literal types. -/
abbrev xs (c : Dev nD) : FVec Ideal S50000x32 .f32 := V c main_v91
abbrev ws (c : Dev nD) : FVec Ideal S32x128 .f32 := V c main_arg6
abbrev bs (c : Dev nD) : FVec Ideal S1x128 .f32 := V c main_v92

theorem zeroOffsets : (![0, 0] : Fin 2 → Nat) = fun _ => 0 := funext fun a => by fin_cases a <;> rfl

/-- The index maps over the grid: the input's row block is the output's, the weights and the table stay at block (0, 0), and the
    output's row block at point t is t. -/
theorem blockIdx : ∀ t : Fin cfg4.N,
      win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

set_option maxHeartbeats 1600000 in
/-- What point t writes back is block t of `rowsByColsShift` of the arrays as the region finds them. -/
theorem flushed_eq (c : Dev nD) (t : Fin cfg4.N) :
    (dat4 V c).flushed 3 t
      = ((cfg4.win 3).blk t).view.read (Elt Ideal) (rowsByColsShift (xs V c) (ws V c) (bs V c)) := by
  show (cfg4.win 3).cut (grid4.coords t) ((dat4 V c).after 3 t) = _
  rw [after4_3]
  unfold out4_3
  rw [View.canon_unit_zero zeroOffsets]
  simp only [View.ld_unit_zero (S := S5000x32) zeroOffsets, View.ld_unit_zero (S := S32x128) zeroOffsets,
    View.ld_unit_zero (S := S1x128) zeroOffsets]
  obtain ⟨e0, e1, e2, e3, e4, e5, e6, e7⟩ := blockIdx t
  funext j
  obtain ⟨p, q, rfl⟩ : ∃ (p : Fin 5000) (q : Fin 128), j = ix2 p q := ⟨j 0, j 1, eq_ix2 j⟩
  refine (Payload.pay4_apply (iblk4 V c 0 t) (iblk4 V c 1 t) (iblk4 V c 2 t) p q).trans ?_
  show (∑ k : Fin 32, xs V c (((cfg4.win 0).blk t).view.emb (ix2 p k)) * ws V c (((cfg4.win 1).blk t).view.emb (ix2 k q)))
        + bs V c (((cfg4.win 2).blk t).view.emb (ix2 0 q))
      = (∑ k : Fin 32, xs V c (ix2 ((((cfg4.win 3).blk t).view.emb (ix2 p q)) 0) k)
          * ws V c (ix2 k ((((cfg4.win 3).blk t).view.emb (ix2 p q)) 1)))
        + bs V c (ix2 0 ((((cfg4.win 3).blk t).view.emb (ix2 p q)) 1))
  have h0 : ∀ k : Fin 32, ((cfg4.win 0).blk t).view.emb (ix2 p k) = ix2 ((((cfg4.win 3).blk t).view.emb (ix2 p q)) 0) k := fun k => by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 32 + 1 * k.val = k.val; omega
  have h1 : ∀ k : Fin 32, ((cfg4.win 1).blk t).view.emb (ix2 k q) = ix2 k ((((cfg4.win 3).blk t).view.emb (ix2 p q)) 1) := fun k => by
    funext a; apply Fin.ext
    match a with
    | ⟨0, _⟩ => show win4_1.index t (0 : Fin 2) * 32 + 1 * k.val = k.val; omega
    | ⟨1, _⟩ => show win4_1.index t (1 : Fin 2) * 128 + 1 * q.val = win4_3.index t (1 : Fin 2) * 128 + 1 * q.val; omega
  have h2 : ((cfg4.win 2).blk t).view.emb (ix2 0 q) = ix2 0 ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 128 + 1 * q.val = win4_3.index t (1 : Fin 2) * 128 + 1 * q.val; omega
  simp only [h0, h1, h2]
  rfl

/-- An entry of the output array is in point t's block iff each coordinate is in the block's range on its axis. -/
theorem mem_blk (t : Fin cfg4.N) (i : S50000x128.Idx) :
    i ∈ ((cfg4.win 3).blk t).view.set
      ↔ ∀ a : Fin 2, win4_3.index t a * S5000x128.size a ≤ (i a).val ∧ (i a).val < win4_3.index t a * S5000x128.size a + S5000x128.size a := by
  show i ∈ ((View.whole main_v93).slice (win4_3.rect t)).set ↔ _
  rw [View.set_slice_whole, Rect.mem_set_unit]
  exact Iff.rfl

/-- Every entry lies in some point's block: row r in block r / 5000. -/
theorem covered (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 10 := N_4
  have ht : (i 0).val / 5000 < cfg4.N := by show (i 0).val / 5000 < grid4.N; omega
  obtain ⟨e0, e1, e2, e3, e4, e5, e6, e7⟩ := blockIdx ⟨(i 0).val / 5000, ht⟩
  have e6' : win4_3.index ⟨(i 0).val / 5000, ht⟩ (0 : Fin 2) = (i 0).val / 5000 := e6
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    omega
  | ⟨1, _⟩ =>
    show win4_3.index ⟨(i 0).val / 5000, ht⟩ (1 : Fin 2) * 128 ≤ (i 1).val
      ∧ (i 1).val < win4_3.index ⟨(i 0).val / 5000, ht⟩ (1 : Fin 2) * 128 + 128
    omega

/-- The output array after the region: the product of the input array by the weights, plus the table on every row. -/
theorem arr (c : Dev nD) : (dat4 V c).arrAt 3 cfg4.N = rowsByColsShift (xs V c) (ws V c) (bs V c) :=
  (dat4 V c).arrAt_eq_of_cover 3 _ (fun t _ => flushed_eq V c t) (covered)

end Cert.KernelIdeal.Region4

end
-- ==== Proof.Chain.lean ====
/-
  The kernel program's result array as one composition of array functions of the launch memory.

  Walking the program's boundaries in order, at the ideal values:
  region 0 leaves the product of the node features by the first weights; the host operations after it leave the width-64
  aggregation of that product and the edge list, and the first bias as one row; region 1 leaves their `shiftClamp`; region 2
  its product by the second weights; the host operations after it leave the width-32 aggregation and the second bias as one
  row; region 3 their `shiftClamp`; one host operation leaves the third bias as one row; region 4 leaves the product by the
  last weights plus that row. Every argument array is read where it is needed exactly as launched, since neither a host
  operation nor a region writes it.
-/
import proofs.«145602_j32152125177955_1_alg».proof.Proof.Gen.KernelIdeal.Frame
import proofs.«145602_j32152125177955_1_alg».proof.Proof.HostRead
import proofs.«145602_j32152125177955_1_alg».proof.Proof.Region0
import proofs.«145602_j32152125177955_1_alg».proof.Proof.Region1
import proofs.«145602_j32152125177955_1_alg».proof.Proof.Region2
import proofs.«145602_j32152125177955_1_alg».proof.Proof.Region3
import proofs.«145602_j32152125177955_1_alg».proof.Proof.Region4

set_option maxRecDepth 16384

noncomputable section

namespace Cert.KernelIdeal.Chain

open Cert.KernelIdeal Cert.KernelIdeal.Gen Idealize.ShloMosaic Idealize.ShloMosaic.TcCoe Idealize.SL.Sem Cert.Gcn
open Cert.ReferenceIdeal.Agg

variable (m : (ℓ : Loc nD τ sig) → Buf (Elt Ideal) ℓ) (ρ : Dev nD → PrngReg) (c : Dev nD)

/-! ## The argument arrays, read at the boundaries where they are needed -/

-- after region 0 (it writes only its own output)
theorem w1_arg1 : W1 m ρ c (Proc.devRef .tc main_arg1) = m ((c : Thread nD τ).loc main_arg1) := W1_of_ne m ρ c main_arg1 (by decide)
theorem w1_arg3 : W1 m ρ c (Proc.devRef .tc main_arg3) = m ((c : Thread nD τ).loc main_arg3) := W1_of_ne m ρ c main_arg3 (by decide)
theorem w1_arg4 : W1 m ρ c (Proc.devRef .tc main_arg4) = m ((c : Thread nD τ).loc main_arg4) := W1_of_ne m ρ c main_arg4 (by decide)
theorem w1_arg5 : W1 m ρ c (Proc.devRef .tc main_arg5) = m ((c : Thread nD τ).loc main_arg5) := W1_of_ne m ρ c main_arg5 (by decide)
theorem w1_arg6 : W1 m ρ c (Proc.devRef .tc main_arg6) = m ((c : Thread nD τ).loc main_arg6) := W1_of_ne m ρ c main_arg6 (by decide)
theorem w1_arg7 : W1 m ρ c (Proc.devRef .tc main_arg7) = m ((c : Thread nD τ).loc main_arg7) := W1_of_ne m ρ c main_arg7 (by decide)
-- after the host operations between regions 0 and 1
theorem w4_arg1 : W4 m ρ c (Proc.devRef .tc main_arg1) = m ((c : Thread nD τ).loc main_arg1) := (HostRead.after1_arg1 (W1 m ρ c)).trans (w1_arg1 m ρ c)
theorem w4_arg4 : W4 m ρ c (Proc.devRef .tc main_arg4) = m ((c : Thread nD τ).loc main_arg4) := (HostRead.after1_arg4 (W1 m ρ c)).trans (w1_arg4 m ρ c)
theorem w4_arg5 : W4 m ρ c (Proc.devRef .tc main_arg5) = m ((c : Thread nD τ).loc main_arg5) := (HostRead.after1_arg5 (W1 m ρ c)).trans (w1_arg5 m ρ c)
theorem w4_arg6 : W4 m ρ c (Proc.devRef .tc main_arg6) = m ((c : Thread nD τ).loc main_arg6) := (HostRead.after1_arg6 (W1 m ρ c)).trans (w1_arg6 m ρ c)
theorem w4_arg7 : W4 m ρ c (Proc.devRef .tc main_arg7) = m ((c : Thread nD τ).loc main_arg7) := (HostRead.after1_arg7 (W1 m ρ c)).trans (w1_arg7 m ρ c)
-- after region 1
theorem w5_arg1 : W5 m ρ c (Proc.devRef .tc main_arg1) = m ((c : Thread nD τ).loc main_arg1) := (W5_of_ne m ρ c main_arg1 (by decide)).trans (w4_arg1 m ρ c)
theorem w5_arg4 : W5 m ρ c (Proc.devRef .tc main_arg4) = m ((c : Thread nD τ).loc main_arg4) := (W5_of_ne m ρ c main_arg4 (by decide)).trans (w4_arg4 m ρ c)
theorem w5_arg5 : W5 m ρ c (Proc.devRef .tc main_arg5) = m ((c : Thread nD τ).loc main_arg5) := (W5_of_ne m ρ c main_arg5 (by decide)).trans (w4_arg5 m ρ c)
theorem w5_arg6 : W5 m ρ c (Proc.devRef .tc main_arg6) = m ((c : Thread nD τ).loc main_arg6) := (W5_of_ne m ρ c main_arg6 (by decide)).trans (w4_arg6 m ρ c)
theorem w5_arg7 : W5 m ρ c (Proc.devRef .tc main_arg7) = m ((c : Thread nD τ).loc main_arg7) := (W5_of_ne m ρ c main_arg7 (by decide)).trans (w4_arg7 m ρ c)
-- after region 2
theorem w6_arg1 : W6 m ρ c (Proc.devRef .tc main_arg1) = m ((c : Thread nD τ).loc main_arg1) := (W6_of_ne m ρ c main_arg1 (by decide)).trans (w5_arg1 m ρ c)
theorem w6_arg5 : W6 m ρ c (Proc.devRef .tc main_arg5) = m ((c : Thread nD τ).loc main_arg5) := (W6_of_ne m ρ c main_arg5 (by decide)).trans (w5_arg5 m ρ c)
theorem w6_arg6 : W6 m ρ c (Proc.devRef .tc main_arg6) = m ((c : Thread nD τ).loc main_arg6) := (W6_of_ne m ρ c main_arg6 (by decide)).trans (w5_arg6 m ρ c)
theorem w6_arg7 : W6 m ρ c (Proc.devRef .tc main_arg7) = m ((c : Thread nD τ).loc main_arg7) := (W6_of_ne m ρ c main_arg7 (by decide)).trans (w5_arg7 m ρ c)
-- after the host operations between regions 2 and 3
theorem w9_arg6 : W9 m ρ c (Proc.devRef .tc main_arg6) = m ((c : Thread nD τ).loc main_arg6) := (HostRead.after3_arg6 (W6 m ρ c)).trans (w6_arg6 m ρ c)
theorem w9_arg7 : W9 m ρ c (Proc.devRef .tc main_arg7) = m ((c : Thread nD τ).loc main_arg7) := (HostRead.after3_arg7 (W6 m ρ c)).trans (w6_arg7 m ρ c)
-- after region 3
theorem w10_arg6 : W10 m ρ c (Proc.devRef .tc main_arg6) = m ((c : Thread nD τ).loc main_arg6) := (W10_of_ne m ρ c main_arg6 (by decide)).trans (w9_arg6 m ρ c)
theorem w10_arg7 : W10 m ρ c (Proc.devRef .tc main_arg7) = m ((c : Thread nD τ).loc main_arg7) := (W10_of_ne m ρ c main_arg7 (by decide)).trans (w9_arg7 m ρ c)
-- after the host operation between regions 3 and 4
theorem w11_arg6 : W11 m ρ c (Proc.devRef .tc main_arg6) = m ((c : Thread nD τ).loc main_arg6) := (HostRead.after4_arg6 (W10 m ρ c)).trans (w10_arg6 m ρ c)

/-! ## The computed arrays, boundary by boundary -/

/-- After region 0: the node features times the first weights. -/
theorem v0_eq : W1 m ρ c (Proc.devRef .tc main_v0)
    = rowsByCols (m ((c : Thread nD τ).loc main_arg0)) (m ((c : Thread nD τ).loc main_arg2)) :=
  (W1_arr m ρ c 2).trans (Region0.arr (V0 m ρ) c)

/-- Before region 1: the width-64 aggregation of that product. -/
theorem v43_eq : W4 m ρ c (Proc.devRef .tc main_v43)
    = agg64 (rowsByCols (m ((c : Thread nD τ).loc main_arg0)) (m ((c : Thread nD τ).loc main_arg2))) (m ((c : Thread nD τ).loc main_arg1)) :=
  (HostRead.after1_agg (W1 m ρ c)).trans (congrArg₂ agg64 (v0_eq m ρ c) (w1_arg1 m ρ c))

/-- Before region 1: the first bias as one row. -/
theorem v44_eq : W4 m ρ c (Proc.devRef .tc main_v44) = shapeCast S1x64 (m ((c : Thread nD τ).loc main_arg3)) shapeCasts_S64_S1x64 :=
  (HostRead.after1_bias (W1 m ρ c)).trans (congrArg (fun b => shapeCast S1x64 b shapeCasts_S64_S1x64) (w1_arg3 m ρ c))

/-- After region 1: the aggregation plus the bias, clamped. -/
theorem v45_eq : W5 m ρ c (Proc.devRef .tc main_v45)
    = shiftClamp (agg64 (rowsByCols (m ((c : Thread nD τ).loc main_arg0)) (m ((c : Thread nD τ).loc main_arg2))) (m ((c : Thread nD τ).loc main_arg1)))
        (shapeCast S1x64 (m ((c : Thread nD τ).loc main_arg3)) shapeCasts_S64_S1x64) :=
  ((W5_arr m ρ c 2).trans (Region1.arr (V4 m ρ) c)).trans (congrArg₂ shiftClamp (v43_eq m ρ c) (v44_eq m ρ c))

/-- After region 2: that times the second weights. -/
theorem v46_eq : W6 m ρ c (Proc.devRef .tc main_v46)
    = rowsByCols (shiftClamp (agg64 (rowsByCols (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4)) :=
  ((W6_arr m ρ c 2).trans (Region2.arr (V5 m ρ) c)).trans (congrArg₂ rowsByCols (v45_eq m ρ c) (w5_arg4 m ρ c))

/-- Before region 3: the width-32 aggregation of that product. -/
theorem v89_eq : W9 m ρ c (Proc.devRef .tc main_v89)
    = agg32 (rowsByCols (shiftClamp (agg64 (rowsByCols (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4))) (m ((c : Thread nD τ).loc main_arg1)) :=
  (HostRead.after3_agg (W6 m ρ c)).trans (congrArg₂ agg32 (v46_eq m ρ c) (w6_arg1 m ρ c))

/-- Before region 3: the second bias as one row. -/
theorem v90_eq : W9 m ρ c (Proc.devRef .tc main_v90) = shapeCast S1x32 (m ((c : Thread nD τ).loc main_arg5)) shapeCasts_S32_S1x32 :=
  (HostRead.after3_bias (W6 m ρ c)).trans (congrArg (fun b => shapeCast S1x32 b shapeCasts_S32_S1x32) (w6_arg5 m ρ c))

/-- After region 3: the aggregation plus the bias, clamped. -/
theorem v91_eq : W10 m ρ c (Proc.devRef .tc main_v91)
    = shiftClamp (agg32 (rowsByCols (shiftClamp (agg64 (rowsByCols (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4))) (m ((c : Thread nD τ).loc main_arg1)))
        (shapeCast S1x32 (m ((c : Thread nD τ).loc main_arg5)) shapeCasts_S32_S1x32) :=
  ((W10_arr m ρ c 2).trans (Region3.arr (V9 m ρ) c)).trans (congrArg₂ shiftClamp (v89_eq m ρ c) (v90_eq m ρ c))

/-- Before region 4: region 3's output is untouched. -/
theorem v91_eq' : W11 m ρ c (Proc.devRef .tc main_v91)
    = shiftClamp (agg32 (rowsByCols (shiftClamp (agg64 (rowsByCols (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4))) (m ((c : Thread nD τ).loc main_arg1)))
        (shapeCast S1x32 (m ((c : Thread nD τ).loc main_arg5)) shapeCasts_S32_S1x32) :=
  (HostRead.after4_v91 (W10 m ρ c)).trans (v91_eq m ρ c)

/-- Before region 4: the third bias as one row. -/
theorem v92_eq : W11 m ρ c (Proc.devRef .tc main_v92) = shapeCast S1x128 (m ((c : Thread nD τ).loc main_arg7)) shapeCasts_S128_S1x128 :=
  (HostRead.after4_bias (W10 m ρ c)).trans (congrArg (fun b => shapeCast S1x128 b shapeCasts_S128_S1x128) (w10_arg7 m ρ c))

/-- The result array: region 4's product plus the third bias row, of everything before it. -/
theorem out_eq : W12 m ρ c (Proc.devRef .tc main_v93)
    = rowsByColsShift
        (shiftClamp (agg32 (rowsByCols (shiftClamp (agg64 (rowsByCols (m ((c : Thread nD τ).loc main_arg0)) (m ((c : Thread nD τ).loc main_arg2))) (m ((c : Thread nD τ).loc main_arg1)))
          (shapeCast S1x64 (m ((c : Thread nD τ).loc main_arg3)) shapeCasts_S64_S1x64)) (m ((c : Thread nD τ).loc main_arg4))) (m ((c : Thread nD τ).loc main_arg1)))
          (shapeCast S1x32 (m ((c : Thread nD τ).loc main_arg5)) shapeCasts_S32_S1x32))
        (m ((c : Thread nD τ).loc main_arg6))
        (shapeCast S1x128 (m ((c : Thread nD τ).loc main_arg7)) shapeCasts_S128_S1x128) :=
  ((W12_arr m ρ c 3).trans (Region4.arr (V11 m ρ) c)).trans
    (by
      show rowsByColsShift (W11 m ρ c (Proc.devRef .tc main_v91)) (W11 m ρ c (Proc.devRef .tc main_arg6)) (W11 m ρ c (Proc.devRef .tc main_v92)) = _
      rw [v91_eq' m ρ c, w11_arg6 m ρ c, v92_eq m ρ c])

end Cert.KernelIdeal.Chain

end
-- ==== Proof.lean ====
/-
  A two-layer graph convolution with a linear read-out, computed two ways, gives one result over the extended reals.

  The kernel program computes, in five regions over blocks of 5000 rows with host operations between them,
    out = (clamp(agg(clamp(agg(x·W1) + b1)·W2) + b2))·Wl + bl,
  each matrix product one block of rows at a time against the whole weight matrix (its operands changed to a shorter float
  format on the way in, which is the identity on extended reals), each bias added as a one-row table, each clamp the larger
  of the entry and zero, and `agg` the neighbourhood aggregation with self-loops and symmetric normalisation, done by host
  operations on the whole arrays. The reference program computes the same composition with whole-array host operations.

  Why they agree, entry by entry:
  * a product taken block of rows by block of rows has, at every entry, the same sum over the contracted coordinate as the
    product of the whole arrays, and the host's plain product is that sum too (no reordering law is needed beyond the sum's
    being one finite sum);
  * the bias as a reshaped one-row table and the bias broadcast to one row are the same table, and adding it to a row block
    is adding it to the rows of the whole array;
  * the two programs apply the SAME aggregation function to equal inputs; it is carried as one function and never opened, so
    nothing is asked of the edge list's entries;
  * the clamps are the same maximum with the same zero.
  No law used here fails at an infinite entry, so the finiteness precondition is not opened.

  The frames of the two kernel programs are the generated ones; the reference's frame is its run with the result dropped. The
  idealization rewrote nothing, so `preserves` holds trivially.
-/
import proofs.«145602_j32152125177955_1_alg».proof.Defs
import proofs.«145602_j32152125177955_1_alg».proof.Proof.Gen.Kernel
import proofs.«145602_j32152125177955_1_alg».proof.Proof.Gen.Kernel.Frame
import proofs.«145602_j32152125177955_1_alg».proof.Proof.Gen.KernelIdeal
import proofs.«145602_j32152125177955_1_alg».proof.Proof.Gen.KernelIdeal.Frame
import proofs.«145602_j32152125177955_1_alg».proof.Proof.Gen.ReferenceIdeal
import proofs.«145602_j32152125177955_1_alg».proof.Proof.Gen.Pre_finite_inputs
import proofs.«145602_j32152125177955_1_alg».proof.Proof.RunNamed
import proofs.«145602_j32152125177955_1_alg».proof.Proof.RefRun
import proofs.«145602_j32152125177955_1_alg».proof.Proof.RefShape
import proofs.«145602_j32152125177955_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs run, keep their arguments, and end with the same result array: the kernel program's last boundary's
    contents. The reference's composed term of its memory is that array: both are the one composition of products, aggregations,
    bias rows and clamps, of memories that agree on the eight argument arrays, and a bias reshaped to one row is the bias
    broadcast to one row. -/
theorem algebraic : Cert.algebraic_KernelIdeal_ReferenceIdeal := by
  intro m ρ m' ρ' _ hagree
  refine ⟨fun c => Cert.KernelIdeal.Gen.W12 m ρ c (Proc.devRef .tc Cert.KernelIdeal.main_v93),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  show Cert.ReferenceIdeal.ValueP.res_main_v99 m' c = Cert.KernelIdeal.Gen.W12 m ρ c (Proc.devRef .tc Cert.KernelIdeal.main_v93)
  rw [Cert.ReferenceIdeal.RefValue.res_eq m' c, Cert.KernelIdeal.Chain.out_eq m ρ c, h0, h1, h2, h3, h4, h5, h6, h7]
  rw [Cert.Gcn.reshape_row_eq_broadcast (n := 64) _ _ Cert.ReferenceIdeal.Gen.bcast_S64_S1x64_1,
    Cert.Gcn.reshape_row_eq_broadcast (n := 32) _ _ Cert.ReferenceIdeal.Gen.bcast_S32_S1x32_1,
    Cert.Gcn.reshape_row_eq_broadcast (n := 128) _ _ Cert.ReferenceIdeal.Gen.bcast_S128_S1x128_1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
